-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x64x128 : Shape := ⟨3, ![4096, 64, 128]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x64x128 : S_.BroadcastsInDim S4096x64x128 (![] : Fin 0 → Fin S4096x64x128.rank)
  reducesTo_S4096x64x128_S_d0_1_2 : S4096x64x128.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x64x128 .f32) (main_arg5 : FVec F S4096x64x128 .f32) (main_arg6 : FVec F S128x256 .f32) (main_arg7 : FVec F S128 .f32) (main_arg8 : FVec F S128x128 .f32) (main_arg9 : FVec F S128 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S4096x64x128 .f32 := Host.absf main_arg4
  let main_cst_6 : FVec F S_ .f32 := constant S_ .f32 0x7F800000#32
  let main_v20 : FVec F S4096x64x128 .f32 := broadcastInDim S4096x64x128 ![] bcast_S_S4096x64x128 main_cst_6
  let main_v21 : IVec S4096x64x128 1 := cmpf .olt main_v19 main_v20
  let main_c_7 : IVec S_ 1 := constantI S_ 1 1#1
  let main_v22 : IVec S_ 1 := (fun x v => Host.reduce IntOp.andi x v reducesTo_S4096x64x128_S_d0_1_2 h_S_) main_v21 main_c_7
  let main_v23 : IVec S_ 1 := andi main_v18 main_v22
  let main_v24 : FVec F S4096x64x128 .f32 := Host.absf main_arg5
  let main_cst_8 : FVec F S_ .f32 := constant S_ .f32 0x7F800000#32
  let main_v25 : FVec F S4096x64x128 .f32 := broadcastInDim S4096x64x128 ![] bcast_S_S4096x64x128 main_cst_8
  let main_v26 : IVec S4096x64x128 1 := cmpf .olt main_v24 main_v25
  let main_c_9 : IVec S_ 1 := constantI S_ 1 1#1
  let main_v27 : IVec S_ 1 := (fun x v => Host.reduce IntOp.andi x v reducesTo_S4096x64x128_S_d0_1_2 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x128 .f32) (main_arg1 : FVec F S4096x128 .f32) (main_arg2 : FVec F S4096x64x128 .f32) (main_arg3 : FVec F S4096x128 .f32) (main_arg4 : FVec F S4096x64x128 .f32) (main_arg5 : FVec F S4096x64x128 .f32) (main_arg6 : FVec F S128x256 .f32) (main_arg7 : FVec F S128 .f32) (main_arg8 : FVec F S128x128 .f32) (main_arg9 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x64x128 .f32 := Host.absf main_arg2
  let main_cst_2 : FVec F S_ .f32 := constant S_ .f32 0x7F800000#32
  let main_v10 : FVec F S4096x64x128 .f32 := broadcastInDim S4096x64x128 ![] bcast_S_S4096x64x128 main_cst_2
  let main_v11 : IVec S4096x64x128 1 := cmpf .olt main_v9 main_v10
  let main_c_3 : IVec S_ 1 := constantI S_ 1 1#1
  let main_v12 : IVec S_ 1 := (fun x v => Host.reduce IntOp.andi x v reducesTo_S4096x64x128_S_d0_1_2 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_arg6 main_arg7 main_arg8 main_arg9 main_v13 main_v16
-- ==== Kernel.lean ====
abbrev S4096x128 : Shape := ⟨2, ![4096, 128]⟩
abbrev S4096x64x128 : Shape := ⟨3, ![4096, 64, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S64x128 : Shape := ⟨2, ![64, 128]⟩
abbrev S64x64x128 : Shape := ⟨3, ![64, 64, 128]⟩
abbrev S64x1x128 : Shape := ⟨3, ![64, 1, 128]⟩
abbrev S1x1x128 : Shape := ⟨3, ![1, 1, 128]⟩

abbrev nBuf : Space → Nat
  | .hbm => 18
  | .vmem => 17
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x64x128, .f32⟩
  | .hbm, ⟨3, _⟩ => ⟨S4096x128, .f32⟩
  | .hbm, ⟨4, _⟩ => ⟨S4096x64x128, .f32⟩
  | .hbm, ⟨5, _⟩ => ⟨S4096x64x128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S1x128, .f32⟩
  | .hbm, ⟨16, _⟩ => ⟨S1x128, .f32⟩
  | .hbm, ⟨17, _⟩ => ⟨S4096x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x64x128, .f32⟩
  | .local _ .vmem, ⟨5, _⟩ => ⟨S64x64x128, .f32⟩
  | .local _ .vmem, ⟨6, _⟩ => ⟨S64x64x128, .f32⟩
  | .local _ .vmem, ⟨7, _⟩ => ⟨S64x64x128, .f32⟩
  | .local _ .vmem, ⟨8, _⟩ => ⟨S64x64x128, .f32⟩
  | .local _ .vmem, ⟨9, _⟩ => ⟨S64x64x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S64x128, .f32⟩
  | .local _ .vmem, ⟨16, _⟩ => ⟨S64x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S128x256_S128x128_0_0 : S128x256.Slices ![0, 0] S128x128
  slices_S128x256_S128x128_0_128 : S128x256.Slices ![0, 128] S128x128
  transposes_S128x128_S128x128_1_0 : S128x128.Transposes [1, 0] S128x128
  shapeCasts_S128_S1x128 : S128.ShapeCasts S1x128
  inb_S64x64x128_S64x64x128_0_0_0 : ∀ a, (![0, 0, 0] : Fin 3 → Nat) a + S64x64x128.size a ≤ S64x64x128.size a
  h_S64x64x128 : 0 < S64x64x128.numel
  shapeCasts_S64x64x128_S4096x128 : S64x64x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S4096x128_S64x64x128 : S4096x128.ShapeCasts S64x64x128
  shapeCasts_S64x128_S64x1x128 : S64x128.ShapeCasts S64x1x128
  broadcasts_S64x1x128_S64x64x128 : S64x1x128.Broadcasts S64x64x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S1x1x128 : S128.ShapeCasts S1x1x128
  broadcasts_S1x1x128_S64x64x128 : S1x1x128.Broadcasts S64x64x128
  broadcasts_S1x128_S4096x128 : S1x128.Broadcasts S4096x128
  reduces_S64x64x128_S64x128 : S64x64x128.Reduces [1] S64x128
  dot_S4096x128_S128x128_S4096x128_1_0_0_1_n_n_wf : DotDims.WF S4096x128 S128x128 S4096x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S4096x128.size a
  hwx0_1 : ∀ i : grid0.Coords, EltTy.bits .f32 = 32 ∨ (Rect.block (s := S4096x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x128.size a ≤ S4096x64x128.size a
  hwx0_2 : ∀ i : grid0.Coords, EltTy.bits .f32 = 32 ∨ (Rect.block (s := S4096x64x128) S64x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x128.size a ≤ S4096x64x128.size a
  hwx0_3 : ∀ i : grid0.Coords, EltTy.bits .f32 = 32 ∨ (Rect.block (s := S4096x64x128) S64x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64x128.size a ≤ S4096x64x128.size a
  hwx0_4 : ∀ i : grid0.Coords, EltTy.bits .f32 = 32 ∨ (Rect.block (s := S4096x64x128) S64x64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S4096x128.size a
  hwx0_10 : ∀ i : grid0.Coords, EltTy.bits .f32 = 32 ∨ (Rect.block (s := S4096x128) S64x128.size (cc0_transform_10 i) (hinb0_10 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S64x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x64x128 : Shape := ⟨3, ![4096, 64, 128]⟩
abbrev S128x256 : Shape := ⟨2, ![128, 256]⟩
abbrev S128 : Shape := ⟨1, ![128]⟩
abbrev S128x128 : Shape := ⟨2, ![128, 128]⟩
abbrev S4096x1x128 : Shape := ⟨3, ![4096, 1, 128]⟩
abbrev S1x1x128 : Shape := ⟨3, ![1, 1, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x64x128, .f32⟩
  | .hbm, ⟨3, _⟩ => ⟨S4096x128, .f32⟩
  | .hbm, ⟨4, _⟩ => ⟨S4096x64x128, .f32⟩
  | .hbm, ⟨5, _⟩ => ⟨S4096x64x128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S4096x64x128, .f32⟩
  | .hbm, ⟨11, _⟩ => ⟨S4096x64x128, .f32⟩
  | .hbm, ⟨12, _⟩ => ⟨S128x128, .f32⟩
  | .hbm, ⟨13, _⟩ => ⟨S128x128, .f32⟩
  | .hbm, ⟨14, _⟩ => ⟨S4096x64x128, .f32⟩
  | .hbm, ⟨15, _⟩ => ⟨S4096x128, .f32⟩
  | .hbm, ⟨16, _⟩ => ⟨S4096x1x128, .f32⟩
  | .hbm, ⟨17, _⟩ => ⟨S4096x64x128, .f32⟩
  | .hbm, ⟨18, _⟩ => ⟨S4096x64x128, .f32⟩
  | .hbm, ⟨19, _⟩ => ⟨S1x1x128, .f32⟩
  | .hbm, ⟨20, _⟩ => ⟨S4096x64x128, .f32⟩
  | .hbm, ⟨21, _⟩ => ⟨S4096x64x128, .f32⟩
  | .hbm, ⟨22, _⟩ => ⟨S_, .f32⟩
  | .hbm, ⟨23, _⟩ => ⟨S4096x64x128, .f32⟩
  | .hbm, ⟨24, _⟩ => ⟨S4096x64x128, .f32⟩
  | .hbm, ⟨25, _⟩ => ⟨S4096x64x128, .f32⟩
  | .hbm, ⟨26, _⟩ => ⟨S1x1x128, .f32⟩
  | .hbm, ⟨27, _⟩ => ⟨S4096x64x128, .f32⟩
  | .hbm, ⟨28, _⟩ => ⟨S4096x64x128, .f32⟩
  | .hbm, ⟨29, _⟩ => ⟨S4096x64x128, .f32⟩
  | .hbm, ⟨30, _⟩ => ⟨S_, .f32⟩
  | .hbm, ⟨31, _⟩ => ⟨S4096x128, .f32⟩
  | .hbm, ⟨32, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  slices_S128x256_S128x128_0_0 : S128x256.Slices ![0, 0] S128x128
  slices_S128x256_S128x128_0_128 : S128x256.Slices ![0, 128] S128x128
  bcast_S4096x128_S4096x1x128_0_2 : S4096x128.BroadcastsInDim S4096x1x128 (![0, 2] : Fin 2 → Fin S4096x1x128.rank)
  bcast_S4096x1x128_S4096x64x128_0_1_2 : S4096x1x128.BroadcastsInDim S4096x64x128 (![0, 1, 2] : Fin 3 → Fin S4096x64x128.rank)
  bcast_S128_S1x1x128_2 : S128.BroadcastsInDim S1x1x128 (![2] : Fin 1 → Fin S1x1x128.rank)
  bcast_S1x1x128_S4096x64x128_0_1_2 : S1x1x128.BroadcastsInDim S4096x64x128 (![0, 1, 2] : Fin 3 → Fin S4096x64x128.rank)
  bcast_S_S4096x64x128 : S_.BroadcastsInDim S4096x64x128 (![] : Fin 0 → Fin S4096x64x128.rank)
  reducesTo_S4096x64x128_S4096x128_d1 : S4096x64x128.ReducesTo [1] S4096x128
  h_S_ : 0 < S_.numel
  dot_S4096x64x128_S128x128_S4096x64x128_2_1_01_0_n_n_wf : DotDims.WF S4096x64x128 S128x128 S4096x64x128 [2] [1] [0, 1] [0] [] []
  dot_S4096x128_S128x128_S4096x128_1_1_0_0_n_n_wf : DotDims.WF S4096x128 S128x128 S4096x128 [1] [1] [0] [0] [] []

variable [Facts₀]

def dot_S4096x64x128_S128x128_S4096x64x128_2_1_01_0_n_n : DotDims S4096x64x128 S128x128 S4096x64x128 where
  lhsContracting := [2]
  rhsContracting := [1]
  lhsNonContracting := [0, 1]
  rhsNonContracting := [0]
  lhsBatch := []
  rhsBatch := []
  wf := dot_S4096x64x128_S128x128_S4096x64x128_2_1_01_0_n_n_wf
def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf

class Facts : Prop extends Facts₀ where

variable [Facts]
-- ==== Proof.Spec.lean ====
/-
  The mathematics of the claim, stated once, away from both programs.

  One output element of the neighbour aggregation, at batch row `b` and feature `e`, depends on: the query
  embedding's element `q = query_emb[b, e]`; the query relation row `qr = query_r[b, ·]`; for each of the 64
  neighbours `r` its relation row `rr r = refer_r[b, r, ·]` and the two elements `re r = refer_embs[b, r, e]`,
  `se r = start_embs[b, r, e]`; and the weights — the two halves `wa k d = W1[k, d]`, `wb k d = W1[k, 128 + d]` of
  the first layer, its bias `b1`, the second layer `w2 e k = W2[e, k]` and its bias `b2`. With these,

    hidden  h[r, k] = max (((Σ_d rr r d · wa k d) + (Σ_d qr d · wb k d)) + b1 k) 0
    attention a[r]  = (Σ_k h[r, k] · w2 e k) + b2 e
    result          = q + Σ_r a[r] · (re r − (se r + rr r e)).

  Every sum is a finite sum over the extended reals, in which addition is commutative and associative; nothing here
  distributes or cancels, so no element is asked to be finite. `aggregate` is this function over the ten argument
  arrays at their literal shapes, index by index.
-/
import Idealize.ShloMosaic.PureOps.Ideal
import Idealize.ShloMosaic.Lib.ValueIdx

noncomputable section

open scoped BigOperators

namespace Cert.Spec

open Idealize.ShloMosaic Idealize.ShloMosaic.ValueIdx

/-- The hidden unit `k` of one neighbour: the first layer on the neighbour's relation row and the query's, its bias,
    then the rectifier (the maximum with the f32 zero word's value). -/
def hidS (rr qr : Fin 128 → EReal) (wa wb : Fin 128 → Fin 128 → EReal) (b1 : Fin 128 → EReal) (k : Fin 128) : EReal :=
  max (((∑ d : Fin 128, rr d * wa k d) + (∑ d : Fin 128, qr d * wb k d)) + b1 k) (Ideal.ofBits .f32 0x00000000#32)

/-- The attention weight of one neighbour at feature `e`: the second layer on its hidden units, and its bias. -/
def attnS (rr qr : Fin 128 → EReal) (wa wb : Fin 128 → Fin 128 → EReal) (b1 : Fin 128 → EReal)
    (w2 : Fin 128 → Fin 128 → EReal) (b2 : Fin 128 → EReal) (e : Fin 128) : EReal :=
  (∑ k : Fin 128, hidS rr qr wa wb b1 k * w2 e k) + b2 e

/-- One output element: the query's element plus the sum over the 64 neighbours of attention times bias term. -/
def outS (q : EReal) (qr : Fin 128 → EReal) (re se : Fin 64 → EReal) (rr : Fin 64 → Fin 128 → EReal)
    (wa wb : Fin 128 → Fin 128 → EReal) (b1 : Fin 128 → EReal) (w2 : Fin 128 → Fin 128 → EReal) (b2 : Fin 128 → EReal)
    (e : Fin 128) : EReal :=
  q + ∑ r : Fin 64, attnS (rr r) qr wa wb b1 w2 b2 e * (re r - (se r + rr r e))

/-- Column `d` of the first half of `W1`'s 256 columns, and of the second half. -/
abbrev lo (d : Fin 128) : Fin 256 := ⟨d.val, by have := d.isLt; omega⟩
abbrev hi (d : Fin 128) : Fin 256 := ⟨128 + d.val, by have := d.isLt; omega⟩

/-- The result at batch row `b` and feature `e`, from the argument arrays: query_emb `x0`, refer_embs `x2`, query_r
    `x3`, refer_r `x4`, start_embs `x5`, W1 `x6`, b1 `x7`, W2 `x8`, b2 `x9`. -/
def aggregateAt (x0 : (⟨2, ![4096, 128]⟩ : Shape).Idx → EReal) (x2 : (⟨3, ![4096, 64, 128]⟩ : Shape).Idx → EReal)
    (x3 : (⟨2, ![4096, 128]⟩ : Shape).Idx → EReal) (x4 x5 : (⟨3, ![4096, 64, 128]⟩ : Shape).Idx → EReal)
    (x6 : (⟨2, ![128, 256]⟩ : Shape).Idx → EReal) (x7 : (⟨1, ![128]⟩ : Shape).Idx → EReal)
    (x8 : (⟨2, ![128, 128]⟩ : Shape).Idx → EReal) (x9 : (⟨1, ![128]⟩ : Shape).Idx → EReal)
    (b : Fin 4096) (e : Fin 128) : EReal :=
  outS (x0 (ix2 b e)) (fun d => x3 (ix2 b d)) (fun r => x2 (ix3 b r e)) (fun r => x5 (ix3 b r e))
    (fun r d => x4 (ix3 b r d)) (fun k d => x6 (ix2 k (lo d))) (fun k d => x6 (ix2 k (hi d))) (fun k => x7 (ix1 k))
    (fun e' k => x8 (ix2 e' k)) (fun e' => x9 (ix1 e')) e

/-- The whole result array. -/
def aggregate (x0 : (⟨2, ![4096, 128]⟩ : Shape).Idx → EReal) (x2 : (⟨3, ![4096, 64, 128]⟩ : Shape).Idx → EReal)
    (x3 : (⟨2, ![4096, 128]⟩ : Shape).Idx → EReal) (x4 x5 : (⟨3, ![4096, 64, 128]⟩ : Shape).Idx → EReal)
    (x6 : (⟨2, ![128, 256]⟩ : Shape).Idx → EReal) (x7 : (⟨1, ![128]⟩ : Shape).Idx → EReal)
    (x8 : (⟨2, ![128, 128]⟩ : Shape).Idx → EReal) (x9 : (⟨1, ![128]⟩ : Shape).Idx → EReal) :
    (⟨2, ![4096, 128]⟩ : Shape).Idx → EReal :=
  fun i => aggregateAt x0 x2 x3 x4 x5 x6 x7 x8 x9 (i 0) (i 1)

theorem aggregate_apply (x0 : (⟨2, ![4096, 128]⟩ : Shape).Idx → EReal) (x2 : (⟨3, ![4096, 64, 128]⟩ : Shape).Idx → EReal)
    (x3 : (⟨2, ![4096, 128]⟩ : Shape).Idx → EReal) (x4 x5 : (⟨3, ![4096, 64, 128]⟩ : Shape).Idx → EReal)
    (x6 : (⟨2, ![128, 256]⟩ : Shape).Idx → EReal) (x7 : (⟨1, ![128]⟩ : Shape).Idx → EReal)
    (x8 : (⟨2, ![128, 128]⟩ : Shape).Idx → EReal) (x9 : (⟨1, ![128]⟩ : Shape).Idx → EReal) (b : Fin 4096) (e : Fin 128) :
    aggregate x0 x2 x3 x4 x5 x6 x7 x8 x9 (ix2 b e) = aggregateAt x0 x2 x3 x4 x5 x6 x7 x8 x9 b e := rfl

end Cert.Spec

end
-- ==== Proof.RefIsSpec.lean ====
/-
  The reference computes `Spec.aggregate`.

  The reference's result, read one operation at a time at an index, is: the query embedding's element plus the
  host's sum over the neighbour axis, started at the zero word's value (which is the extended real 0), of the
  product of the attention term and the bias term; each `dot_general` contracts one axis, so it reads as a sum
  over that axis's 128 coordinates; each `broadcast_in_dim` reads its operand at the coordinates it keeps. Named
  by coordinates `(b, r, k)`, these are exactly the scalar formulas of the specification.
-/
import proofs.«117593_j85839216378521_1_alg».proof.Proof.Gen.ReferenceIdeal.Read
import proofs.«117593_j85839216378521_1_alg».proof.Proof.Spec

noncomputable section

open scoped BigOperators

namespace Cert.RefValue

open Cert.ReferenceIdeal Cert.ReferenceIdeal.Read Idealize.ShloMosaic Idealize.ShloMosaic.ValueIdx Cert.Spec

variable (x0 : (⟨S4096x128, .f32⟩ : BufTy).Contents (Elt Ideal)) (x2 : (⟨S4096x64x128, .f32⟩ : BufTy).Contents (Elt Ideal))
  (x3 : (⟨S4096x128, .f32⟩ : BufTy).Contents (Elt Ideal)) (x4 x5 : (⟨S4096x64x128, .f32⟩ : BufTy).Contents (Elt Ideal))
  (x6 : (⟨S128x256, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))

/-- The first contraction at `(b, r, k)`: the neighbour's relation row against row `k` of `W1`'s first half. -/
theorem proj_neighbour_at (b : Fin 4096) (r : Fin 64) (k : Fin 128) :
    val_main_v4 (F := Ideal) x4 x6 (ix3 b r k) = ∑ d : Fin 128, x4 (ix3 b r d) * x6 (ix2 k (lo d)) := by
  rw [val_main_v4_apply]
  refine Finset.sum_congr rfl fun d _ => ?_
  rw [val_main_v2_apply]
  have el : lidx_main_v4 (ix3 b r k) d = ix3 b r d :=
    funext fun a => Fin.ext (by match a with | ⟨0, _⟩ => rfl | ⟨1, _⟩ => rfl | ⟨2, _⟩ => rfl)
  have er : idx_main_v2 (ridx_main_v4 (ix3 b r k) d) = ix2 k (lo d) :=
    funext fun a => Fin.ext (by match a with | ⟨0, _⟩ => rfl | ⟨1, _⟩ => rfl)
  rw [el, er]

/-- The second contraction at `(b, k)`: the query's relation row against row `k` of `W1`'s second half. -/
theorem proj_query_at (b : Fin 4096) (k : Fin 128) :
    val_main_v5 (F := Ideal) x3 x6 (ix2 b k) = ∑ d : Fin 128, x3 (ix2 b d) * x6 (ix2 k (hi d)) := by
  rw [val_main_v5_apply]
  refine Finset.sum_congr rfl fun d _ => ?_
  rw [val_main_v3_apply]
  have el : lidx_main_v5 (ix2 b k) d = ix2 b d :=
    funext fun a => Fin.ext (by match a with | ⟨0, _⟩ => rfl | ⟨1, _⟩ => rfl)
  have er : idx_main_v3 (ridx_main_v5 (ix2 b k) d) = ix2 k (hi d) :=
    funext fun a => Fin.ext (by match a with | ⟨0, _⟩ => rfl | ⟨1, _⟩ => rfl)
  rw [el, er]

/-- The rectified hidden unit at `(b, r, k)`. -/
theorem hidden_at (b : Fin 4096) (r : Fin 64) (k : Fin 128) :
    val_main_v12 (F := Ideal) x3 x4 x6 x7 (ix3 b r k)
      = hidS (fun d => x4 (ix3 b r d)) (fun d => x3 (ix2 b d)) (fun k d => x6 (ix2 k (lo d)))
          (fun k d => x6 (ix2 k (hi d))) (fun k => x7 (ix1 k)) k := by
  rw [val_main_v12_apply, val_main_v11_apply, val_main_v8_apply, val_main_v10_apply, val_main_v9_apply,
    val_main_v7_apply, val_main_v6_apply, val_main_call0_v0_apply, val_main_call0_cst_apply]
  have e1 : idx_main_v6 (idx_main_v7 (ix3 b r k)) = ix2 b k :=
    funext fun a => Fin.ext (by match a with | ⟨0, _⟩ => rfl | ⟨1, _⟩ => rfl)
  have e2 : idx_main_v9 (idx_main_v10 (ix3 b r k)) = ix1 k :=
    funext fun a => Fin.ext (by match a with | ⟨0, _⟩ => rfl)
  rw [e1, e2, proj_neighbour_at, proj_query_at]
  rfl

/-- The attention term at `(b, r, e)`. -/
theorem attention_at (b : Fin 4096) (r : Fin 64) (e : Fin 128) :
    val_main_v16 (F := Ideal) x3 x4 x6 x7 x8 x9 (ix3 b r e)
      = attnS (fun d => x4 (ix3 b r d)) (fun d => x3 (ix2 b d)) (fun k d => x6 (ix2 k (lo d)))
          (fun k d => x6 (ix2 k (hi d))) (fun k => x7 (ix1 k)) (fun e' k => x8 (ix2 e' k)) (fun e' => x9 (ix1 e')) e := by
  rw [val_main_v16_apply, val_main_v13_apply, val_main_v15_apply, val_main_v14_apply]
  have e3 : idx_main_v14 (idx_main_v15 (ix3 b r e)) = ix1 e :=
    funext fun a => Fin.ext (by match a with | ⟨0, _⟩ => rfl)
  rw [e3]
  unfold attnS
  refine congrArg (· + x9 (ix1 e)) (Finset.sum_congr rfl fun k _ => ?_)
  have el : lidx_main_v13 (ix3 b r e) k = ix3 b r k :=
    funext fun a => Fin.ext (by match a with | ⟨0, _⟩ => rfl | ⟨1, _⟩ => rfl | ⟨2, _⟩ => rfl)
  have er : ridx_main_v13 (ix3 b r e) k = ix2 e k :=
    funext fun a => Fin.ext (by match a with | ⟨0, _⟩ => rfl | ⟨1, _⟩ => rfl)
  rw [el, er, hidden_at]

/-- The reference's result array is the specification's. -/
theorem stage_eq_aggregate :
    val_main_v19 (F := Ideal) x0 x2 x3 x4 x5 x6 x7 x8 x9 = aggregate x0 x2 x3 x4 x5 x6 x7 x8 x9 := by
  funext i
  obtain ⟨b, e, rfl⟩ : ∃ (b : Fin 4096) (e : Fin 128), i = ix2 b e := ⟨i 0, i 1, eq_ix2 i⟩
  rw [aggregate_apply, val_main_v19_apply, val_main_v18_apply, val_main_cst_apply]
  show x0 (ix2 b e) + (Ideal.ofBits .f32 0x00000000#32 + _) = _
  rw [Ideal.ofBits_zero_f32, zero_add]
  unfold aggregateAt outS
  refine congrArg (x0 (ix2 b e) + ·) (Finset.sum_congr rfl fun r _ => ?_)
  have e4 : idx_main_v18 (ix2 b e) r = ix3 b r e :=
    funext fun a => Fin.ext (by match a with | ⟨0, _⟩ => rfl | ⟨1, _⟩ => rfl | ⟨2, _⟩ => rfl)
  rw [e4, val_main_v17_apply, attention_at, val_main_v1_apply, val_main_v0_apply]
  rfl

end Cert.RefValue

end
-- ==== Proof.LibBlockLayout.lean ====
/-
  Layout operations read at an index, at symbolic extents: the shapes a kernel meets when it flattens a block of
  `a` groups of `b` rows into `a · b` rows for one dense matrix product and unflattens the product, adds a
  per-group row to every row of its group, and adds one bias row to every row.

  * `[a, b, c] → [n, c]` with `n = a · b` and back: row `p · b + r` of the flat array is row `r` of group `p`.
  * `[a, c] → [a, 1, c]` and `[a, 1, c] → [a, b, c]`: the group's row, repeated over the group's `b` rows.
  * `[c] → [1, 1, c]` and `[1, 1, c] → [a, b, c]`: one row, repeated everywhere.

  Each is the library's `shapeCast_apply` (equal row-major positions) or `broadcastTo_apply` (the operand's
  coordinate is the result's, or `0` on a unit axis) with both indices written by coordinates.
-/
import Idealize.ShloMosaic.Lib.Pipeline.Value
import Idealize.ShloMosaic.Lib.ValueIdx

namespace Cert.LibBlockLayout

open Idealize.ShloMosaic Idealize.ShloMosaic.ValueIdx

variable {α : Type}

/-- `[a, b, c]` cast to `[n, c]`: at row `i = p · b + r` and column `k` it reads `(p, r, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (r : Fin b) (k : Fin c) (i : Fin n)
    (hi : i.val = p.val * b + r.val) : shapeCast ⟨2, ![n, c]⟩ x h (ix2 i k) = x (ix3 p r k) :=
  shapeCast_apply x h _ _ (by
    rw [Shape.rowMajor_val_three, Shape.rowMajor_val_two]
    show (p.val * b + r.val) * c + k.val = i.val * c + k.val
    rw [hi])

/-- `[n, c]` cast to `[a, b, c]`: at `(p, r, k)` it reads row `i = p · b + r`, column `k`. -/
theorem shapeCast_nc_abc_apply {a b c n : ℕ} (x : (⟨2, ![n, c]⟩ : Shape).Idx → α)
    (h : (⟨2, ![n, c]⟩ : Shape).ShapeCasts ⟨3, ![a, b, c]⟩) (p : Fin a) (r : Fin b) (k : Fin c) (i : Fin n)
    (hi : i.val = p.val * b + r.val) : shapeCast ⟨3, ![a, b, c]⟩ x h (ix3 p r k) = x (ix2 i k) :=
  shapeCast_apply x h _ _ (by
    rw [Shape.rowMajor_val_three, Shape.rowMajor_val_two]
    show i.val * c + k.val = (p.val * b + r.val) * c + k.val
    rw [hi])

/-- `[a, c]` cast to `[a, 1, c]`: at `(p, u, k)` it reads `(p, k)`, whatever the unit coordinate `u`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- `[a, 1, c]` broadcast to `[a, b, c]`: at `(p, r, k)` it reads `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (r : Fin b) (k : Fin c) :
    broadcastTo ⟨3, ![a, b, c]⟩ v h (ix3 p r k) = v (ix3 p (0 : Fin 1) k) := by
  refine broadcastTo_apply v h (ix3 p r k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- `[c]` cast to `[1, 1, c]`: at `(u, v, k)` it reads `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp only [hu, hv, Nat.zero_mul, Nat.zero_add, Nat.mul_one, Nat.add_zero])

/-- `[1, 1, c]` broadcast to `[a, b, c]`: at `(p, r, k)` it reads `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (r : Fin b) (k : Fin c) :
    broadcastTo ⟨3, ![a, b, c]⟩ v h (ix3 p r k) = v (ix3 (0 : Fin 1) (0 : Fin 1) k) := by
  refine broadcastTo_apply v h (ix3 p r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibBlockLayout
-- ==== Proof.KernelBlock.lean ====
/-
  One grid point of the kernel computes the specification on its block.

  A grid point holds 64 batch rows. Its body flattens the block's `64 × 64` (row, neighbour) pairs into 4096 rows
  so that each linear layer is ONE matrix product into a zero accumulator; at the ideal values such a product, read
  at an index, is the plain sum over the contracted coordinate. Row `p · 64 + r` of the flat array is neighbour
  `r` of block row `p`. The weights arrive already transposed (`P2[d, k]`, `P4[d, k]`, `P6[k, e]`), and the two
  biases as `1 × 128` rows. Stage by stage:

    neighbour projection   (p, r, k) ↦ Σ_d P1[p, r, d] · P2[d, k]
    query projection       (p, r, k) ↦ Σ_d P3[p, d] · P4[d, k]          (one row per block row, repeated over r)
    hidden                 (p, r, k) ↦ max ((neighbour + query) + P5[0, k]) 0
    attention              (p, r, e) ↦ (Σ_k hidden[p, r, k] · P6[k, e]) + P7[0, e]
    block result           (p, e)    ↦ P0[p, e] + Σ_r attention[p, r, e] · (P8[p, r, e] − (P9[p, r, e] + P1[p, r, e]))

  which are `Spec.hidS`, `Spec.attnS` and `Spec.outS` at the block's rows.
-/
import proofs.«117593_j85839216378521_1_alg».proof.Proof.Gen.KernelIdeal.Value
import proofs.«117593_j85839216378521_1_alg».proof.Proof.Spec
import proofs.«117593_j85839216378521_1_alg».proof.Proof.LibBlockLayout
import Idealize.ShloMosaic.Lib.ValueIdx
import Idealize.ShloMosaic.Lib.ValueLayout
import Idealize.ShloMosaic.PureOps.Ideal.Laws

noncomputable section

open scoped BigOperators

namespace Cert.KernelValue

open Cert.KernelIdeal Cert.KernelIdeal.Gen Idealize.ShloMosaic Idealize.ShloMosaic.ValueIdx Cert.Spec Cert.LibBlockLayout

/-- Neighbour `r` of block row `p`, as a row of the flattened `4096 × 128` array. -/
abbrev flatRow (p r : Fin 64) : Fin 4096 := ⟨p.val * 64 + r.val, by have := p.isLt; have := r.isLt; omega⟩

/-! ## The two matrix products read at an index -/

theorem lhsFlat_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsFlat_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsFlat_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsFlat_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The `4096 × 128` by `128 × 128` product into zero, at `(i, k)`: the sum over the contracted coordinate. -/
theorem matmulFlat_at (lhs : FVec Ideal S4096x128 .f32) (rhs : FVec Ideal S128x128 .f32) (i : Fin 4096) (k : Fin 128) :
    matmul dot_S4096x128_S128x128_S4096x128_1_0_0_1_n_n none lhs rhs (constant (F := Ideal) S4096x128 .f32 0x00000000#32) (ix2 i k)
      = ∑ d : Fin 128, lhs (ix2 i d) * rhs (ix2 d k) := by
  refine (Ideal.matmul_constant_zero_apply dot_S4096x128_S128x128_S4096x128_1_0_0_1_n_n none lhs rhs (ix2 i k)).trans ?_
  rw [← Equiv.sum_comp (ValueIdx.contrEquiv1 dot_S4096x128_S128x128_S4096x128_1_0_0_1_n_n 128 rfl rfl).symm]
  refine Finset.sum_congr rfl fun d _ => ?_
  have hk := ValueIdx.contrEquiv1_symm_val dot_S4096x128_S128x128_S4096x128_1_0_0_1_n_n 128 rfl rfl d
  have el : dot_S4096x128_S128x128_S4096x128_1_0_0_1_n_n.lhsIdx (ix2 i k) ((ValueIdx.contrEquiv1 dot_S4096x128_S128x128_S4096x128_1_0_0_1_n_n 128 rfl rfl).symm d) = ix2 i d := funext fun a => Fin.ext (by
    match a with
    | ⟨0, _⟩ => exact lhsFlat_0 _ _
    | ⟨1, _⟩ => exact (lhsFlat_1 _ _).trans hk)
  have er : dot_S4096x128_S128x128_S4096x128_1_0_0_1_n_n.rhsIdx (ix2 i k) ((ValueIdx.contrEquiv1 dot_S4096x128_S128x128_S4096x128_1_0_0_1_n_n 128 rfl rfl).symm d) = ix2 d k := funext fun a => Fin.ext (by
    match a with
    | ⟨0, _⟩ => exact (rhsFlat_0 _ _).trans hk
    | ⟨1, _⟩ => exact rhsFlat_1 _ _)
  rw [el, er]

theorem lhsRows_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhsRows_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhsRows_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhsRows_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The `64 × 128` by `128 × 128` product into zero, at `(p, k)`. -/
theorem matmulRows_at (lhs : FVec Ideal S64x128 .f32) (rhs : FVec Ideal S128x128 .f32) (p : Fin 64) (k : Fin 128) :
    matmul dot_S64x128_S128x128_S64x128_1_0_0_1_n_n none lhs rhs (constant (F := Ideal) S64x128 .f32 0x00000000#32) (ix2 p k)
      = ∑ d : Fin 128, lhs (ix2 p d) * rhs (ix2 d k) := by
  refine (Ideal.matmul_constant_zero_apply dot_S64x128_S128x128_S64x128_1_0_0_1_n_n none lhs rhs (ix2 p k)).trans ?_
  rw [← Equiv.sum_comp (ValueIdx.contrEquiv1 dot_S64x128_S128x128_S64x128_1_0_0_1_n_n 128 rfl rfl).symm]
  refine Finset.sum_congr rfl fun d _ => ?_
  have hk := ValueIdx.contrEquiv1_symm_val dot_S64x128_S128x128_S64x128_1_0_0_1_n_n 128 rfl rfl d
  have el : dot_S64x128_S128x128_S64x128_1_0_0_1_n_n.lhsIdx (ix2 p k) ((ValueIdx.contrEquiv1 dot_S64x128_S128x128_S64x128_1_0_0_1_n_n 128 rfl rfl).symm d) = ix2 p d := funext fun a => Fin.ext (by
    match a with
    | ⟨0, _⟩ => exact lhsRows_0 _ _
    | ⟨1, _⟩ => exact (lhsRows_1 _ _).trans hk)
  have er : dot_S64x128_S128x128_S64x128_1_0_0_1_n_n.rhsIdx (ix2 p k) ((ValueIdx.contrEquiv1 dot_S64x128_S128x128_S64x128_1_0_0_1_n_n 128 rfl rfl).symm d) = ix2 d k := funext fun a => Fin.ext (by
    match a with
    | ⟨0, _⟩ => exact (rhsRows_0 _ _).trans hk
    | ⟨1, _⟩ => exact rhsRows_1 _ _)
  rw [el, er]

/-! ## The sum over the neighbour axis read at an index -/

/-- The lane sum over axis 1 of a `64 × 64 × 128` value, at `(p, e)`: the sum over the 64 neighbours. -/
theorem neighbourSum_at (src : FVec Ideal S64x64x128 .f32) (h : S64x64x128.Reduces [1] S64x128) (hφ : FKind.Formats .f32)
    (hacc : (0x00000000#32 : BitVec 32) = FKind.add.neutral .f32 hφ) (p : Fin 64) (e : Fin 128) :
    multiReduction .add [1] S64x128 src 0x00000000#32 h hφ hacc (ix2 p e) = ∑ r : Fin 64, src (ix3 p r e) := by
  refine (Ideal.multiReduction_add_single src 0x00000000#32 h hφ hacc (ix2 p e)).trans ?_
  refine Finset.sum_congr rfl fun r _ => congrArg src ?_
  funext a
  apply Fin.ext
  match a with
  | ⟨0, _⟩ => rfl
  | ⟨1, _⟩ => rfl
  | ⟨2, _⟩ => rfl

/-! ## The body's stages -/

variable (P0 : FVec Ideal S64x128 .f32) (P1 : FVec Ideal S64x64x128 .f32) (P2 : FVec Ideal S128x128 .f32)
  (P3 : FVec Ideal S64x128 .f32) (P4 : FVec Ideal S128x128 .f32) (P5 : FVec Ideal S1x128 .f32)
  (P6 : FVec Ideal S128x128 .f32) (P7 : FVec Ideal S1x128 .f32) (P8 P9 : FVec Ideal S64x64x128 .f32)

/-- The neighbours' relation rows through the first half of the first layer. -/
def projNeighbours : FVec Ideal S64x64x128 .f32 :=
  shapeCast S64x64x128 (matmul dot_S4096x128_S128x128_S4096x128_1_0_0_1_n_n none
    (shapeCast S4096x128 P1 shapeCasts_S64x64x128_S4096x128) (shapeCast S128x128 P2 shapeCasts_S128x128_S128x128)
    (constant (F := Ideal) S4096x128 .f32 0x00000000#32)) shapeCasts_S4096x128_S64x64x128

/-- The query's relation rows through the second half, one row per block row repeated over its neighbours. -/
def projQuery : FVec Ideal S64x64x128 .f32 :=
  broadcastTo S64x64x128 (shapeCast S64x1x128 (matmul dot_S64x128_S128x128_S64x128_1_0_0_1_n_n none P3
    (shapeCast S128x128 P4 shapeCasts_S128x128_S128x128) (constant (F := Ideal) S64x128 .f32 0x00000000#32))
    shapeCasts_S64x128_S64x1x128) broadcasts_S64x1x128_S64x64x128

/-- The first layer's bias row, repeated over every (row, neighbour). -/
def biasHidden : FVec Ideal S64x64x128 .f32 :=
  broadcastTo S64x64x128 (shapeCast S1x1x128 (shapeCast S128 P5 shapeCasts_S1x128_S128) shapeCasts_S128_S1x1x128)
    broadcasts_S1x1x128_S64x64x128

/-- The rectified hidden units. -/
def hiddenBlock : FVec Ideal S64x64x128 .f32 :=
  maximumf (addf (addf (projNeighbours P1 P2) (projQuery P3 P4)) (biasHidden P5))
    (broadcast S64x64x128 (Scalar.ofBits (F := Ideal) .f32 0x00000000#32))

/-- The second layer's bias row, repeated over the 4096 flat rows. -/
def biasAttn : FVec Ideal S4096x128 .f32 :=
  broadcastTo S4096x128 (shapeCast S1x128 (shapeCast S128 P7 shapeCasts_S1x128_S128) shapeCasts_S128_S1x128)
    broadcasts_S1x128_S4096x128

/-- The attention terms. -/
def attnBlock : FVec Ideal S64x64x128 .f32 :=
  shapeCast S64x64x128 (addf (matmul dot_S4096x128_S128x128_S4096x128_1_0_0_1_n_n none
    (shapeCast S4096x128 (hiddenBlock P1 P2 P3 P4 P5) shapeCasts_S64x64x128_S4096x128)
    (shapeCast S128x128 P6 shapeCasts_S128x128_S128x128) (constant (F := Ideal) S4096x128 .f32 0x00000000#32))
    (biasAttn P7)) shapeCasts_S4096x128_S64x64x128

/-- The body's attention payload is that tree of stages. -/
theorem pay3_eq_attnBlock : k0_pay3 (F := Ideal) P1 P2 P3 P4 P5 P6 P7 = attnBlock P1 P2 P3 P4 P5 P6 P7 := rfl

theorem projNeighbours_at (p r : Fin 64) (k : Fin 128) :
    projNeighbours P1 P2 (ix3 p r k) = ∑ d : Fin 128, P1 (ix3 p r d) * P2 (ix2 d k) := by
  unfold projNeighbours
  refine (shapeCast_nc_abc_apply _ _ p r k (flatRow p r) rfl).trans ?_
  rw [matmulFlat_at, shapeCast_self]
  refine Finset.sum_congr rfl fun d _ => ?_
  rw [shapeCast_abc_nc_apply P1 _ p r d (flatRow p r) rfl]

theorem projQuery_at (p r : Fin 64) (k : Fin 128) :
    projQuery P3 P4 (ix3 p r k) = ∑ d : Fin 128, P3 (ix2 p d) * P4 (ix2 d k) := by
  unfold projQuery
  refine (broadcastTo_a1c_abc_apply _ _ p r k).trans ?_
  refine (shapeCast_ac_a1c_apply _ _ p (0 : Fin 1) k).trans ?_
  rw [matmulRows_at, shapeCast_self]

theorem biasHidden_at (p r : Fin 64) (k : Fin 128) : biasHidden P5 (ix3 p r k) = P5 (ix2 (0 : Fin 1) k) := by
  unfold biasHidden
  refine (broadcastTo_11c_abc_apply _ _ p r k).trans ?_
  refine (shapeCast_c_11c_apply _ _ (0 : Fin 1) (0 : Fin 1) k).trans ?_
  exact shapeCast_1a_a_apply P5 _ k

theorem hiddenBlock_at (p r : Fin 64) (k : Fin 128) :
    hiddenBlock P1 P2 P3 P4 P5 (ix3 p r k)
      = hidS (fun d => P1 (ix3 p r d)) (fun d => P3 (ix2 p d)) (fun k d => P2 (ix2 d k)) (fun k d => P4 (ix2 d k))
          (fun k => P5 (ix2 (0 : Fin 1) k)) k := by
  show max ((projNeighbours P1 P2 (ix3 p r k) + projQuery P3 P4 (ix3 p r k)) + biasHidden P5 (ix3 p r k))
      (Ideal.ofBits .f32 0x00000000#32) = _
  rw [projNeighbours_at, projQuery_at, biasHidden_at]
  rfl

theorem biasAttn_at (i : Fin 4096) (e : Fin 128) : biasAttn P7 (ix2 i e) = P7 (ix2 (0 : Fin 1) e) := by
  unfold biasAttn
  refine (broadcastTo_1b_ab_apply _ _ i e).trans ?_
  refine (shapeCast_a_1a_apply _ _ (0 : Fin 1) e).trans ?_
  exact shapeCast_1a_a_apply P7 _ e

theorem attnBlock_at (p r : Fin 64) (e : Fin 128) :
    attnBlock P1 P2 P3 P4 P5 P6 P7 (ix3 p r e)
      = attnS (fun d => P1 (ix3 p r d)) (fun d => P3 (ix2 p d)) (fun k d => P2 (ix2 d k)) (fun k d => P4 (ix2 d k))
          (fun k => P5 (ix2 (0 : Fin 1) k)) (fun e' k => P6 (ix2 k e')) (fun e' => P7 (ix2 (0 : Fin 1) e')) e := by
  unfold attnBlock
  refine (shapeCast_nc_abc_apply _ _ p r e (flatRow p r) rfl).trans ?_
  show matmul dot_S4096x128_S128x128_S4096x128_1_0_0_1_n_n none
      (shapeCast S4096x128 (hiddenBlock P1 P2 P3 P4 P5) shapeCasts_S64x64x128_S4096x128)
      (shapeCast S128x128 P6 shapeCasts_S128x128_S128x128) (constant (F := Ideal) S4096x128 .f32 0x00000000#32)
      (ix2 (flatRow p r) e) + biasAttn P7 (ix2 (flatRow p r) e) = _
  rw [matmulFlat_at, biasAttn_at, shapeCast_self]
  unfold attnS
  refine congrArg (· + P7 (ix2 (0 : Fin 1) e)) (Finset.sum_congr rfl fun k _ => ?_)
  rw [shapeCast_abc_nc_apply (hiddenBlock P1 P2 P3 P4 P5) _ p r k (flatRow p r) rfl, hiddenBlock_at]

/-! ## The block -/

/-- What a grid point leaves in the output block, at block row `p` and feature `e`, is the specification's element
    on the block's rows. -/
theorem block_at (p : Fin 64) (e : Fin 128) :
    Cert.KernelIdeal.Value.E10 (F := Ideal) P0 P1 P2 P3 P4 P5 P6 P7 P8 P9 (ix2 p e)
      = outS (P0 (ix2 p e)) (fun d => P3 (ix2 p d)) (fun r => P8 (ix3 p r e)) (fun r => P9 (ix3 p r e))
          (fun r d => P1 (ix3 p r d)) (fun k d => P2 (ix2 d k)) (fun k d => P4 (ix2 d k))
          (fun k => P5 (ix2 (0 : Fin 1) k)) (fun e' k => P6 (ix2 k e')) (fun e' => P7 (ix2 (0 : Fin 1) e')) e := by
  have e0 : Cert.KernelIdeal.Value.ix10_0 (ix2 p e) = ix2 p e :=
    funext fun a => Fin.ext (by match a with | ⟨0, _⟩ => rfl | ⟨1, _⟩ => rfl)
  have e1 : Cert.KernelIdeal.Value.ix10_1 (ix2 p e) = ix2 p e :=
    funext fun a => Fin.ext (by match a with | ⟨0, _⟩ => rfl | ⟨1, _⟩ => rfl)
  show P0 (Cert.KernelIdeal.Value.ix10_0 (ix2 p e))
      + (multiReduction .add [1] S64x128 (mulf (k0_pay3 (F := Ideal) P1 P2 P3 P4 P5 P6 P7) (subf P8 (addf P9 P1)))
          0x00000000#32 reduces_S64x64x128_S64x128 (.inl rfl) rfl) (Cert.KernelIdeal.Value.ix10_1 (ix2 p e)) = _
  rw [e0, e1]
  unfold outS
  refine congrArg (P0 (ix2 p e) + ·) ?_
  refine (neighbourSum_at _ _ _ _ p e).trans ?_
  refine Finset.sum_congr rfl fun r _ => ?_
  show (k0_pay3 (F := Ideal) P1 P2 P3 P4 P5 P6 P7) (ix3 p r e) * (P8 (ix3 p r e) - (P9 (ix3 p r e) + P1 (ix3 p r e))) = _
  rw [pay3_eq_attnBlock, attnBlock_at]

end Cert.KernelValue

end
-- ==== Proof.KernelArray.lean ====
/-
  The kernel's result array is `Spec.aggregate` of the argument arrays.

  The grid has 64 points; point `t` owns batch rows `64·t … 64·t + 63`. Its windows on the five batched arrays are
  those 64 rows; its windows on the weights and biases are the whole arrays, which the host operations before the
  call prepared: the two `128 × 128` halves of `W1` and `W2`, each transposed, and the two biases reshaped to one
  row. So at block row `p` of point `t`, with `b = 64·t + p`:

    the batched blocks read  query_emb[b, ·], query_r[b, ·], refer_embs[b, ·, ·], refer_r[b, ·, ·], start_embs[b, ·, ·];
    the first-layer windows read  W1[k, d]  and  W1[k, 128 + d]  at position (d, k);
    the second-layer window reads  W2[e, k]  at position (k, e);  the bias rows read  b1[k], b2[e]  at (0, ·).

  Hence what point `t` writes back is block `t` of `aggregate` (`flushed_eq`). The 64 output blocks tile the
  `4096 × 128` result (row `i` lies in the block of point `i / 64`), so the array after the run is `aggregate`.
-/
import proofs.«117593_j85839216378521_1_alg».proof.Proof.KernelBlock
import Idealize.ShloMosaic.Lib.StableHlo.Run

noncomputable section

open scoped BigOperators

namespace Cert.KernelValue

open Cert.KernelIdeal Cert.KernelIdeal.Gen Idealize.ShloMosaic Idealize.ShloMosaic.TcCoe Idealize.SL.Sem
open Idealize.ShloMosaic.ValueIdx Idealize.ShloMosaic.StableHlo Cert.Spec
open Idealize.ShloMosaic.Pipeline (Dat)

variable (m : (ℓ : Loc nD τ sig) → Buf (Elt Ideal) ℓ) (ρ : Dev nD → PrngReg)

/-! ## The windows the host operations prepared, read at an index -/

/-- The first half of `W1`, transposed: position `(d, k)` holds `W1[k, d]`. -/
theorem w1a_at (c : Dev nD) (d k : Fin 128) :
    (V m c main_v2 : S128x128.Idx → EReal) (ix2 d k)
      = (m ((c : Thread nD τ).loc main_arg6) : S128x256.Idx → EReal) (ix2 k (lo d)) := by
  have e : (V m c main_v2 : S128x128.Idx → EReal)
      = transpose S128x128 [1, 0] (extractStridedSlice S128x128 ![0, 0] (m ((c : Thread nD τ).loc main_arg6))
          slices_S128x256_S128x128_0_0) transposes_S128x128_S128x128_1_0 := by
    dsimp only [Gen.V, Gen.hostOps0]; after_results <;> rfl
  rw [e]
  refine (transpose_ix2_apply _ _ d k).trans ?_
  exact slice2_axis1_apply 0 _ _ k d (lo d) (by show d.val = 0 + d.val; omega)

/-- The second half of `W1`, transposed: position `(d, k)` holds `W1[k, 128 + d]`. -/
theorem w1b_at (c : Dev nD) (d k : Fin 128) :
    (V m c main_v3 : S128x128.Idx → EReal) (ix2 d k)
      = (m ((c : Thread nD τ).loc main_arg6) : S128x256.Idx → EReal) (ix2 k (hi d)) := by
  have e : (V m c main_v3 : S128x128.Idx → EReal)
      = transpose S128x128 [1, 0] (extractStridedSlice S128x128 ![0, 128] (m ((c : Thread nD τ).loc main_arg6))
          slices_S128x256_S128x128_0_128) transposes_S128x128_S128x128_1_0 := by
    dsimp only [Gen.V, Gen.hostOps0]; after_results <;> rfl
  rw [e]
  refine (transpose_ix2_apply _ _ d k).trans ?_
  exact slice2_axis1_apply 128 _ _ k d (hi d) rfl

/-- `W2`, transposed: position `(k, e)` holds `W2[e, k]`. -/
theorem w2_at (c : Dev nD) (k e : Fin 128) :
    (V m c main_v4 : S128x128.Idx → EReal) (ix2 k e)
      = (m ((c : Thread nD τ).loc main_arg8) : S128x128.Idx → EReal) (ix2 e k) := by
  have h : (V m c main_v4 : S128x128.Idx → EReal)
      = transpose S128x128 [1, 0] (m ((c : Thread nD τ).loc main_arg8)) transposes_S128x128_S128x128_1_0 := by
    dsimp only [Gen.V, Gen.hostOps0]; after_results <;> rfl
  rw [h]
  exact transpose_ix2_apply _ _ k e

/-- The first bias as one row. -/
theorem b1_at (c : Dev nD) (k : Fin 128) :
    (V m c main_v5 : S1x128.Idx → EReal) (ix2 (0 : Fin 1) k)
      = (m ((c : Thread nD τ).loc main_arg7) : S128.Idx → EReal) (ix1 k) := by
  have h : (V m c main_v5 : S1x128.Idx → EReal)
      = shapeCast S1x128 (m ((c : Thread nD τ).loc main_arg7)) shapeCasts_S128_S1x128 := by
    dsimp only [Gen.V, Gen.hostOps0]; after_results <;> rfl
  rw [h]
  exact shapeCast_a_1a_apply _ _ (0 : Fin 1) k

/-- The second bias as one row. -/
theorem b2_at (c : Dev nD) (e : Fin 128) :
    (V m c main_v6 : S1x128.Idx → EReal) (ix2 (0 : Fin 1) e)
      = (m ((c : Thread nD τ).loc main_arg9) : S128.Idx → EReal) (ix1 e) := by
  have h : (V m c main_v6 : S1x128.Idx → EReal)
      = shapeCast S1x128 (m ((c : Thread nD τ).loc main_arg9)) shapeCasts_S128_S1x128 := by
    dsimp only [Gen.V, Gen.hostOps0]; after_results <;> rfl
  rw [h]
  exact shapeCast_a_1a_apply _ _ (0 : Fin 1) e

/-! ## The index maps, decided over the 64 points -/

/-- Point `t`'s block index is `t` on the batch axis of the six batched windows and `0` everywhere else. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Every one of the 64 row blocks of the result is some point's. -/
theorem idx_onto : ∀ q : Fin 64, ∃ t : Fin cfg0.N, win0_10.index t = ![q.val, 0] :=
  (by decide +kernel : ∀ q : Fin 64, ∃ t : Fin grid0.N, win0_10.index t = ![q.val, 0])

/-! ## The blocks at point `t`, read at coordinates (`b = 64·t + p`) -/

section Blocks
variable (c : Dev nD) (t : Fin cfg0.N) (p : Fin 64) (b : Fin 4096) (hb : b.val = t.val * 64 + p.val)
include hb

theorem blk_query_emb (e : Fin 128) :
    iblk m c 0 t (ix2 p e) = (m ((c : Thread nD τ).loc main_arg0) : S4096x128.Idx → EReal) (ix2 b e) := by
  show V m c main_arg0 (((cfg0.win 0).blk t).view.emb (ix2 p e)) = _
  rw [V_main_arg0]
  refine congrArg _ (funext fun a => Fin.ext ?_)
  obtain ⟨f0, f1, -⟩ := idx_facts t
  match a with
  | ⟨0, _⟩ => show win0_0.index t (0 : Fin 2) * 64 + 1 * p.val = b.val; omega
  | ⟨1, _⟩ => show win0_0.index t (1 : Fin 2) * 128 + 1 * e.val = e.val; omega

theorem blk_query_r (d : Fin 128) :
    iblk m c 1 t (ix2 p d) = (m ((c : Thread nD τ).loc main_arg3) : S4096x128.Idx → EReal) (ix2 b d) := by
  show V m c main_arg3 (((cfg0.win 1).blk t).view.emb (ix2 p d)) = _
  rw [V_main_arg3]
  refine congrArg _ (funext fun a => Fin.ext ?_)
  obtain ⟨-, -, f0, f1, -⟩ := idx_facts t
  match a with
  | ⟨0, _⟩ => show win0_1.index t (0 : Fin 2) * 64 + 1 * p.val = b.val; omega
  | ⟨1, _⟩ => show win0_1.index t (1 : Fin 2) * 128 + 1 * d.val = d.val; omega

theorem blk_refer_embs (r : Fin 64) (e : Fin 128) :
    iblk m c 2 t (ix3 p r e) = (m ((c : Thread nD τ).loc main_arg2) : S4096x64x128.Idx → EReal) (ix3 b r e) := by
  show V m c main_arg2 (((cfg0.win 2).blk t).view.emb (ix3 p r e)) = _
  rw [V_main_arg2]
  refine congrArg _ (funext fun a => Fin.ext ?_)
  obtain ⟨-, -, -, -, f0, f1, f2, -⟩ := idx_facts t
  match a with
  | ⟨0, _⟩ => show win0_2.index t (0 : Fin 3) * 64 + 1 * p.val = b.val; omega
  | ⟨1, _⟩ => show win0_2.index t (1 : Fin 3) * 64 + 1 * r.val = r.val; omega
  | ⟨2, _⟩ => show win0_2.index t (2 : Fin 3) * 128 + 1 * e.val = e.val; omega

theorem blk_refer_r (r : Fin 64) (d : Fin 128) :
    iblk m c 3 t (ix3 p r d) = (m ((c : Thread nD τ).loc main_arg4) : S4096x64x128.Idx → EReal) (ix3 b r d) := by
  show V m c main_arg4 (((cfg0.win 3).blk t).view.emb (ix3 p r d)) = _
  rw [V_main_arg4]
  refine congrArg _ (funext fun a => Fin.ext ?_)
  obtain ⟨-, -, -, -, -, -, -, f0, f1, f2, -⟩ := idx_facts t
  match a with
  | ⟨0, _⟩ => show win0_3.index t (0 : Fin 3) * 64 + 1 * p.val = b.val; omega
  | ⟨1, _⟩ => show win0_3.index t (1 : Fin 3) * 64 + 1 * r.val = r.val; omega
  | ⟨2, _⟩ => show win0_3.index t (2 : Fin 3) * 128 + 1 * d.val = d.val; omega

theorem blk_start_embs (r : Fin 64) (e : Fin 128) :
    iblk m c 4 t (ix3 p r e) = (m ((c : Thread nD τ).loc main_arg5) : S4096x64x128.Idx → EReal) (ix3 b r e) := by
  show V m c main_arg5 (((cfg0.win 4).blk t).view.emb (ix3 p r e)) = _
  rw [V_main_arg5]
  refine congrArg _ (funext fun a => Fin.ext ?_)
  obtain ⟨-, -, -, -, -, -, -, -, -, -, f0, f1, f2, -⟩ := idx_facts t
  match a with
  | ⟨0, _⟩ => show win0_4.index t (0 : Fin 3) * 64 + 1 * p.val = b.val; omega
  | ⟨1, _⟩ => show win0_4.index t (1 : Fin 3) * 64 + 1 * r.val = r.val; omega
  | ⟨2, _⟩ => show win0_4.index t (2 : Fin 3) * 128 + 1 * e.val = e.val; omega

end Blocks

section Whole
variable (c : Dev nD) (t : Fin cfg0.N)

theorem blk_w1a (d k : Fin 128) :
    iblk m c 5 t (ix2 d k) = (m ((c : Thread nD τ).loc main_arg6) : S128x256.Idx → EReal) (ix2 k (lo d)) := by
  show V m c main_v2 (((cfg0.win 5).blk t).view.emb (ix2 d k)) = _
  refine Eq.trans (congrArg _ (funext fun a => Fin.ext ?_)) (w1a_at m c d k)
  obtain ⟨-, -, -, -, -, -, -, -, -, -, -, -, -, f0, f1, -⟩ := idx_facts t
  match a with
  | ⟨0, _⟩ => show win0_5.index t (0 : Fin 2) * 128 + 1 * d.val = d.val; omega
  | ⟨1, _⟩ => show win0_5.index t (1 : Fin 2) * 128 + 1 * k.val = k.val; omega

theorem blk_w1b (d k : Fin 128) :
    iblk m c 6 t (ix2 d k) = (m ((c : Thread nD τ).loc main_arg6) : S128x256.Idx → EReal) (ix2 k (hi d)) := by
  show V m c main_v3 (((cfg0.win 6).blk t).view.emb (ix2 d k)) = _
  refine Eq.trans (congrArg _ (funext fun a => Fin.ext ?_)) (w1b_at m c d k)
  obtain ⟨-, -, -, -, -, -, -, -, -, -, -, -, -, -, -, f0, f1, -⟩ := idx_facts t
  match a with
  | ⟨0, _⟩ => show win0_6.index t (0 : Fin 2) * 128 + 1 * d.val = d.val; omega
  | ⟨1, _⟩ => show win0_6.index t (1 : Fin 2) * 128 + 1 * k.val = k.val; omega

theorem blk_w2 (k e : Fin 128) :
    iblk m c 7 t (ix2 k e) = (m ((c : Thread nD τ).loc main_arg8) : S128x128.Idx → EReal) (ix2 e k) := by
  show V m c main_v4 (((cfg0.win 7).blk t).view.emb (ix2 k e)) = _
  refine Eq.trans (congrArg _ (funext fun a => Fin.ext ?_)) (w2_at m c k e)
  obtain ⟨-, -, -, -, -, -, -, -, -, -, -, -, -, -, -, -, -, f0, f1, -⟩ := idx_facts t
  match a with
  | ⟨0, _⟩ => show win0_7.index t (0 : Fin 2) * 128 + 1 * k.val = k.val; omega
  | ⟨1, _⟩ => show win0_7.index t (1 : Fin 2) * 128 + 1 * e.val = e.val; omega

theorem blk_b1 (k : Fin 128) :
    iblk m c 8 t (ix2 (0 : Fin 1) k) = (m ((c : Thread nD τ).loc main_arg7) : S128.Idx → EReal) (ix1 k) := by
  show V m c main_v5 (((cfg0.win 8).blk t).view.emb (ix2 (0 : Fin 1) k)) = _
  refine Eq.trans (congrArg _ (funext fun a => Fin.ext ?_)) (b1_at m c k)
  obtain ⟨-, -, -, -, -, -, -, -, -, -, -, -, -, -, -, -, -, -, -, f0, f1, -⟩ := idx_facts t
  match a with
  | ⟨0, _⟩ => show win0_8.index t (0 : Fin 2) * 1 + 1 * 0 = 0; omega
  | ⟨1, _⟩ => show win0_8.index t (1 : Fin 2) * 128 + 1 * k.val = k.val; omega

theorem blk_b2 (e : Fin 128) :
    iblk m c 9 t (ix2 (0 : Fin 1) e) = (m ((c : Thread nD τ).loc main_arg9) : S128.Idx → EReal) (ix1 e) := by
  show V m c main_v6 (((cfg0.win 9).blk t).view.emb (ix2 (0 : Fin 1) e)) = _
  refine Eq.trans (congrArg _ (funext fun a => Fin.ext ?_)) (b2_at m c e)
  obtain ⟨-, -, -, -, -, -, -, -, -, -, -, -, -, -, -, -, -, -, -, -, -, f0, f1, -⟩ := idx_facts t
  match a with
  | ⟨0, _⟩ => show win0_9.index t (0 : Fin 2) * 1 + 1 * 0 = 0; omega
  | ⟨1, _⟩ => show win0_9.index t (1 : Fin 2) * 128 + 1 * e.val = e.val; omega

end Whole

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- The result array as the specification gives it, from the arguments as launched. -/
abbrev result (c : Dev nD) : S4096x128.Idx → EReal :=
  aggregate (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- What point `t` writes back is block `t` of the specification's array. -/
theorem flushed_eq (c : Dev nD) (t : Fin cfg0.N) :
    (dats m 0 c).flushed 10 t = ((cfg0.win 10).blk t).view.read (Elt Ideal) (result m c) := by
  rw [Cert.KernelIdeal.Value.flushed10]
  unfold out0_10
  rw [funext (Cert.KernelIdeal.Value.canon10_eq _ _ _ _ _ _ _ _ _ _)]
  simp only [View.ld_unit_zero (S := S64x128) hz2, View.ld_unit_zero (S := S64x64x128) hz3,
    View.ld_unit_zero (S := S128x128) hz2, View.ld_unit_zero (S := S1x128) hz2]
  funext j
  have hj0 : (j 0).val < 64 := (j 0).isLt
  have hj1 : (j 1).val < 128 := (j 1).isLt
  have ht : t.val < 64 := by have h := t.isLt; have hN : cfg0.N = 64 := N_0; omega
  obtain ⟨-, -, -, -, -, -, -, -, -, -, -, -, -, -, -, -, -, -, -, -, -, -, -, f0, f1⟩ := idx_facts t
  have hx : (cfg0.win 10).xinj (grid0.coords t) j = ix2 (⟨(j 0).val, hj0⟩ : Fin 64) (⟨(j 1).val, hj1⟩ : Fin 128) :=
    funext fun a => Fin.ext (by match a with | ⟨0, _⟩ => rfl | ⟨1, _⟩ => rfl)
  have he : ((cfg0.win 10).blk t).view.emb j
      = ix2 (⟨t.val * 64 + (j 0).val, by omega⟩ : Fin 4096) (⟨(j 1).val, hj1⟩ : Fin 128) :=
    funext fun a => Fin.ext (by
      match a with
      | ⟨0, _⟩ => show win0_10.index t (0 : Fin 2) * 64 + 1 * (j 0).val = t.val * 64 + (j 0).val; omega
      | ⟨1, _⟩ => show win0_10.index t (1 : Fin 2) * 128 + 1 * (j 1).val = (j 1).val; omega)
  show Cert.KernelIdeal.Value.E10 (F := Ideal) (iblk m c 0 t) (iblk m c 3 t) (iblk m c 5 t) (iblk m c 1 t) (iblk m c 6 t)
      (iblk m c 8 t) (iblk m c 7 t) (iblk m c 9 t) (iblk m c 2 t) (iblk m c 4 t) ((cfg0.win 10).xinj (grid0.coords t) j)
    = result m c (((cfg0.win 10).blk t).view.emb j)
  rw [hx, he]
  refine (block_at (iblk m c 0 t) (iblk m c 3 t) (iblk m c 5 t) (iblk m c 1 t) (iblk m c 6 t) (iblk m c 8 t)
    (iblk m c 7 t) (iblk m c 9 t) (iblk m c 2 t) (iblk m c 4 t) ⟨(j 0).val, hj0⟩ ⟨(j 1).val, hj1⟩).trans ?_
  show _ = aggregateAt _ _ _ _ _ _ _ _ _ _ _
  unfold aggregateAt
  have hb : (⟨t.val * 64 + (j 0).val, by omega⟩ : Fin 4096).val = t.val * 64 + (⟨(j 0).val, hj0⟩ : Fin 64).val := rfl
  simp only [blk_query_emb m c t _ _ hb, blk_query_r m c t _ _ hb, blk_refer_embs m c t _ _ hb, blk_refer_r m c t _ _ hb,
    blk_start_embs m c t _ _ hb, blk_w1a m c t, blk_w1b m c t, blk_w2 m c t, blk_b1 m c t, blk_b2 m c t]

/-! ## The blocks tile the result -/

/-- An index of the result is in point `t`'s block iff each coordinate is in the block's range on its axis. -/
theorem mem_blk (t : Fin cfg0.N) (i : S4096x128.Idx) :
    i ∈ ((cfg0.win 10).blk t).view.set ↔ ∀ a : Fin 2, win0_10.index t a * S64x128.size a ≤ (i a).val
      ∧ (i a).val < win0_10.index t a * S64x128.size a + S64x128.size a := by
  show i ∈ ((View.whole main_v7).slice (win0_10.rect t)).set ↔ _
  rw [View.set_slice_whole, Rect.mem_set_unit]
  exact Iff.rfl

/-- Row `i` of the result lies in the block of point `i / 64`. -/
theorem cover (i : S4096x128.Idx) :
    ∃ t : Fin cfg0.N, (cfg0.win 10).flush t = true ∧ i ∈ ((cfg0.win 10).blk t).view.set := by
  have hi0 : (i 0).val < 4096 := (i 0).isLt
  have hi1 : (i 1).val < 128 := (i 1).isLt
  obtain ⟨t, ht⟩ := idx_onto ⟨(i 0).val / 64, by omega⟩
  have q0 : win0_10.index t (0 : Fin 2) = (i 0).val / 64 := congrFun ht 0
  have q1 : win0_10.index t (1 : Fin 2) = 0 := congrFun ht 1
  refine ⟨t, flush0_10 t, ?_⟩
  rw [mem_blk]
  intro a
  match a with
  | ⟨0, _⟩ =>
    show win0_10.index t (0 : Fin 2) * 64 ≤ (i 0).val ∧ (i 0).val < win0_10.index t (0 : Fin 2) * 64 + 64
    omega
  | ⟨1, _⟩ =>
    show win0_10.index t (1 : Fin 2) * 128 ≤ (i 1).val ∧ (i 1).val < win0_10.index t (1 : Fin 2) * 128 + 128
    omega

/-- The result array after the run. -/
theorem final (c : Dev nD) : (dats m 0 c).arrAt 10 cfg0.N = result m c :=
  (dats m 0 c).arrAt_eq_of_cover 10 (result m c) (fun t _ => flushed_eq m c t) cover

/-- The kernel's run: it terminates with the result array at the specification's and the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.Value.run_blocks m ρ)

end Cert.KernelValue

end
-- ==== Proof.lean ====
/-
  Neighbour aggregation with a two-layer attention: for every batch row `b` and feature `e`

    out[b, e] = query_emb[b, e] + Σ_r attn[b, r, e] · (refer_embs[b, r, e] − (start_embs[b, r, e] + refer_r[b, r, e]))
    attn[b, r, e] = (Σ_k h[b, r, k] · W2[e, k]) + b2[e]
    h[b, r, k] = max (((Σ_d refer_r[b, r, d] · W1[k, d]) + (Σ_d query_r[b, d] · W1[k, 128 + d])) + b1[k]) 0

  over the extended reals; the second result is `offset_emb`, passed through untouched.

  The kernel computes this 64 batch rows at a time, with the weights transposed beforehand and each linear layer
  as one matrix product over the flattened (row, neighbour) pairs; the reference computes it with three
  contractions over the whole arrays. Both are the SAME tree of sums, products, one maximum and one difference,
  arranged differently: read at an index, each side is `Spec.outS` of the same rows of the arguments
  (Proof/RefIsSpec.lean for the reference, Proof/KernelBlock.lean and Proof/KernelArray.lean for the kernel), so the
  two result arrays are equal with no law of arithmetic used beyond `0 + x = x` for the sums' starting value, and
  no input is asked to be finite.

  The frames: the two kernel programs' are their generated frame certificates; the reference has no kernel, and its
  frame is its run with the result forgotten. The idealization rewrote nothing, so `preserves` is `True`.
-/
import proofs.«117593_j85839216378521_1_alg».proof.Defs
import proofs.«117593_j85839216378521_1_alg».proof.Proof.Gen.Kernel
import proofs.«117593_j85839216378521_1_alg».proof.Proof.Gen.Kernel.Skeleton
import proofs.«117593_j85839216378521_1_alg».proof.Proof.Gen.Kernel.Launch
import proofs.«117593_j85839216378521_1_alg».proof.Proof.Gen.Kernel.Points
import proofs.«117593_j85839216378521_1_alg».proof.Proof.Gen.Kernel.Frame
import proofs.«117593_j85839216378521_1_alg».proof.Proof.Gen.KernelIdeal
import proofs.«117593_j85839216378521_1_alg».proof.Proof.Gen.KernelIdeal.Skeleton
import proofs.«117593_j85839216378521_1_alg».proof.Proof.Gen.KernelIdeal.Launch
import proofs.«117593_j85839216378521_1_alg».proof.Proof.Gen.KernelIdeal.Points
import proofs.«117593_j85839216378521_1_alg».proof.Proof.Gen.KernelIdeal.Frame
import proofs.«117593_j85839216378521_1_alg».proof.Proof.Gen.ReferenceIdeal
import proofs.«117593_j85839216378521_1_alg».proof.Proof.Gen.Pre_finite_inputs
import proofs.«117593_j85839216378521_1_alg».proof.Proof.Gen.KernelIdeal.Value
import proofs.«117593_j85839216378521_1_alg».proof.Proof.Gen.ReferenceIdeal.Run
import proofs.«117593_j85839216378521_1_alg».proof.Proof.Gen.ReferenceIdeal.Read
import proofs.«117593_j85839216378521_1_alg».proof.Proof.RefIsSpec
import proofs.«117593_j85839216378521_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments alone: its run, with what it says of the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the first result at the specification's array
    of the kernel's arguments and the second at `offset_emb` as launched. -/
theorem algebraic : Cert.algebraic_KernelIdeal_ReferenceIdeal := by
  intro m ρ m' ρ' _ hagree
  refine ⟨fun c => Cert.KernelValue.result m c,
    fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelValue.run m ρ)
  · refine (θ_run Cert.ReferenceIdeal.defs _ _).mono (fun r h c => ⟨(h c).1.trans ?_, (h c).2.1.trans (hagree c).2.1, (h c).2.2⟩)
      (Cert.ReferenceIdeal.Value.run (F := Ideal) m' ρ')
    obtain ⟨a0, -, a2, a3, a4, a5, a6, a7, a8, a9⟩ := hagree c
    rw [Cert.ReferenceIdeal.Read.val_main_v19_eq, Cert.RefValue.stage_eq_aggregate, a0, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
